-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel

variable [Facts]

def fn {F : FTy → Type} [FloatOps F] (main_arg0 : FVec F S4194304x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  main_v3
-- ==== Kernel.lean ====
abbrev S4194304x3 : Shape := ⟨2, ![4194304, 3]⟩
abbrev S3x4194304 : Shape := ⟨2, ![3, 4194304]⟩
abbrev S16x4194304 : Shape := ⟨2, ![16, 4194304]⟩
abbrev S3x65536 : Shape := ⟨2, ![3, 65536]⟩
abbrev S16x65536 : Shape := ⟨2, ![16, 65536]⟩
abbrev S1x65536 : Shape := ⟨2, ![1, 65536]⟩
abbrev S65536 : Shape := ⟨1, ![65536]⟩
abbrev S4194304x16 : Shape := ⟨2, ![4194304, 16]⟩

abbrev nBuf : Space → Nat
  | .hbm => 4
  | .vmem => 4
  | .smem => 0
  | _ => 0

abbrev bufTy : (tb : Table) → Fin (tcTables nBuf tb) → BufTy
  | .hbm, ⟨0, _⟩ => ⟨S4194304x3, .f32⟩
  | .hbm, ⟨1, _⟩ => ⟨S3x4194304, .f32⟩
  | .hbm, ⟨2, _⟩ => ⟨S16x4194304, .f32⟩
  | .hbm, ⟨3, _⟩ => ⟨S4194304x16, .f32⟩
  | .local _ .vmem, ⟨0, _⟩ => ⟨S3x65536, .f32⟩
  | .local _ .vmem, ⟨1, _⟩ => ⟨S3x65536, .f32⟩
  | .local _ .vmem, ⟨2, _⟩ => ⟨S16x65536, .f32⟩
  | .local _ .vmem, ⟨3, _⟩ => ⟨S16x65536, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S4194304x3_S3x4194304_1_0 : S4194304x3.Transposes [1, 0] S3x4194304
  inb_S3x65536_S1x65536_0_0 : ∀ a, (![0, 0] : Fin 2 → Nat) a + S1x65536.size a ≤ S3x65536.size a
  h_S1x65536 : 0 < S1x65536.numel
  shapeCasts_S1x65536_S65536 : S1x65536.ShapeCasts S65536
  inb_S3x65536_S1x65536_1_0 : ∀ a, (![1, 0] : Fin 2 → Nat) a + S1x65536.size a ≤ S3x65536.size a
  inb_S3x65536_S1x65536_2_0 : ∀ a, (![2, 0] : Fin 2 → Nat) a + S1x65536.size a ≤ S3x65536.size a
  inb_S16x65536_S1x65536_0_0 : ∀ a, (![0, 0] : Fin 2 → Nat) a + S1x65536.size a ≤ S16x65536.size a
  shapeCasts_S65536_S1x65536 : S65536.ShapeCasts S1x65536
  inb_S16x65536_S1x65536_1_0 : ∀ a, (![1, 0] : Fin 2 → Nat) a + S1x65536.size a ≤ S16x65536.size a
  inb_S16x65536_S1x65536_2_0 : ∀ a, (![2, 0] : Fin 2 → Nat) a + S1x65536.size a ≤ S16x65536.size a
  inb_S16x65536_S1x65536_3_0 : ∀ a, (![3, 0] : Fin 2 → Nat) a + S1x65536.size a ≤ S16x65536.size a
  inb_S16x65536_S1x65536_4_0 : ∀ a, (![4, 0] : Fin 2 → Nat) a + S1x65536.size a ≤ S16x65536.size a
  inb_S16x65536_S1x65536_5_0 : ∀ a, (![5, 0] : Fin 2 → Nat) a + S1x65536.size a ≤ S16x65536.size a
  inb_S16x65536_S1x65536_6_0 : ∀ a, (![6, 0] : Fin 2 → Nat) a + S1x65536.size a ≤ S16x65536.size a
  inb_S16x65536_S1x65536_7_0 : ∀ a, (![7, 0] : Fin 2 → Nat) a + S1x65536.size a ≤ S16x65536.size a
  inb_S16x65536_S1x65536_8_0 : ∀ a, (![8, 0] : Fin 2 → Nat) a + S1x65536.size a ≤ S16x65536.size a
  inb_S16x65536_S1x65536_9_0 : ∀ a, (![9, 0] : Fin 2 → Nat) a + S1x65536.size a ≤ S16x65536.size a
  inb_S16x65536_S1x65536_10_0 : ∀ a, (![10, 0] : Fin 2 → Nat) a + S1x65536.size a ≤ S16x65536.size a
  inb_S16x65536_S1x65536_11_0 : ∀ a, (![11, 0] : Fin 2 → Nat) a + S1x65536.size a ≤ S16x65536.size a
  inb_S16x65536_S1x65536_12_0 : ∀ a, (![12, 0] : Fin 2 → Nat) a + S1x65536.size a ≤ S16x65536.size a
  inb_S16x65536_S1x65536_13_0 : ∀ a, (![13, 0] : Fin 2 → Nat) a + S1x65536.size a ≤ S16x65536.size a
  inb_S16x65536_S1x65536_14_0 : ∀ a, (![14, 0] : Fin 2 → Nat) a + S1x65536.size a ≤ S16x65536.size a
  inb_S16x65536_S1x65536_15_0 : ∀ a, (![15, 0] : Fin 2 → Nat) a + S1x65536.size a ≤ S16x65536.size a
  transposes_S16x4194304_S4194304x16_1_0 : S16x4194304.Transposes [1, 0] S4194304x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x4194304.size a
  hwx0_0 : ∀ i : grid0.Coords, EltTy.bits .f32 = 32 ∨ (Rect.block (s := S3x4194304) S3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x65536.size a ≤ S16x4194304.size a
  hwx0_1 : ∀ i : grid0.Coords, EltTy.bits .f32 = 32 ∨ (Rect.block (s := S16x4194304) S16x65536.size (cc0_transform_1 i) (hinb0_1 i)).WholeWords (EltTy.packing .f32)

variable [Facts₀]

abbrev win0_0 : Pipeline.Window sig grid0 :=
  Pipeline.Window.ofSpec (Memref.whole main_v0) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S4194304x1 : Shape := ⟨2, ![4194304, 1]⟩
abbrev S4194304 : Shape := ⟨1, ![4194304]⟩
abbrev S_ : Shape := ⟨0, ![]⟩
abbrev S4194304x16 : Shape := ⟨2, ![4194304, 16]⟩

abbrev nBuf : Space → Nat
  | .hbm => 116
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S4194304x1, .f32⟩
  | .hbm, ⟨2, _⟩ => ⟨S4194304, .f32⟩
  | .hbm, ⟨3, _⟩ => ⟨S4194304x1, .f32⟩
  | .hbm, ⟨4, _⟩ => ⟨S4194304, .f32⟩
  | .hbm, ⟨5, _⟩ => ⟨S4194304x1, .f32⟩
  | .hbm, ⟨6, _⟩ => ⟨S4194304, .f32⟩
  | .hbm, ⟨7, _⟩ => ⟨S4194304, .f32⟩
  | .hbm, ⟨8, _⟩ => ⟨S4194304, .f32⟩
  | .hbm, ⟨9, _⟩ => ⟨S4194304, .f32⟩
  | .hbm, ⟨10, _⟩ => ⟨S4194304, .f32⟩
  | .hbm, ⟨11, _⟩ => ⟨S4194304, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S_, .f32⟩
  | .hbm, ⟨16, _⟩ => ⟨S4194304, .f32⟩
  | .hbm, ⟨17, _⟩ => ⟨S4194304, .f32⟩
  | .hbm, ⟨18, _⟩ => ⟨S_, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S4194304, .f32⟩
  | .hbm, ⟨23, _⟩ => ⟨S4194304, .f32⟩
  | .hbm, ⟨24, _⟩ => ⟨S_, .f32⟩
  | .hbm, ⟨25, _⟩ => ⟨S4194304, .f32⟩
  | .hbm, ⟨26, _⟩ => ⟨S4194304, .f32⟩
  | .hbm, ⟨27, _⟩ => ⟨S_, .f32⟩
  | .hbm, ⟨28, _⟩ => ⟨S4194304, .f32⟩
  | .hbm, ⟨29, _⟩ => ⟨S4194304, .f32⟩
  | .hbm, ⟨30, _⟩ => ⟨S_, .f32⟩
  | .hbm, ⟨31, _⟩ => ⟨S4194304, .f32⟩
  | .hbm, ⟨32, _⟩ => ⟨S4194304, .f32⟩
  | .hbm, ⟨33, _⟩ => ⟨S_, .f32⟩
  | .hbm, ⟨34, _⟩ => ⟨S4194304, .f32⟩
  | .hbm, ⟨35, _⟩ => ⟨S4194304, .f32⟩
  | .hbm, ⟨36, _⟩ => ⟨S_, .f32⟩
  | .hbm, ⟨37, _⟩ => ⟨S4194304, .f32⟩
  | .hbm, ⟨38, _⟩ => ⟨S4194304, .f32⟩
  | .hbm, ⟨39, _⟩ => ⟨S4194304, .f32⟩
  | .hbm, ⟨40, _⟩ => ⟨S_, .f32⟩
  | .hbm, ⟨41, _⟩ => ⟨S4194304, .f32⟩
  | .hbm, ⟨42, _⟩ => ⟨S4194304, .f32⟩
  | .hbm, ⟨43, _⟩ => ⟨S_, .f32⟩
  | .hbm, ⟨44, _⟩ => ⟨S4194304, .f32⟩
  | .hbm, ⟨45, _⟩ => ⟨S4194304, .f32⟩
  | .hbm, ⟨46, _⟩ => ⟨S_, .f32⟩
  | .hbm, ⟨47, _⟩ => ⟨S4194304, .f32⟩
  | .hbm, ⟨48, _⟩ => ⟨S4194304, .f32⟩
  | .hbm, ⟨49, _⟩ => ⟨S4194304, .f32⟩
  | .hbm, ⟨50, _⟩ => ⟨S4194304, .f32⟩
  | .hbm, ⟨51, _⟩ => ⟨S_, .f32⟩
  | .hbm, ⟨52, _⟩ => ⟨S4194304, .f32⟩
  | .hbm, ⟨53, _⟩ => ⟨S4194304, .f32⟩
  | .hbm, ⟨54, _⟩ => ⟨S4194304, .f32⟩
  | .hbm, ⟨55, _⟩ => ⟨S_, .f32⟩
  | .hbm, ⟨56, _⟩ => ⟨S4194304, .f32⟩
  | .hbm, ⟨57, _⟩ => ⟨S4194304, .f32⟩
  | .hbm, ⟨58, _⟩ => ⟨S_, .f32⟩
  | .hbm, ⟨59, _⟩ => ⟨S4194304, .f32⟩
  | .hbm, ⟨60, _⟩ => ⟨S4194304, .f32⟩
  | .hbm, ⟨61, _⟩ => ⟨S_, .f32⟩
  | .hbm, ⟨62, _⟩ => ⟨S4194304, .f32⟩
  | .hbm, ⟨63, _⟩ => ⟨S4194304, .f32⟩
  | .hbm, ⟨64, _⟩ => ⟨S4194304, .f32⟩
  | .hbm, ⟨65, _⟩ => ⟨S_, .f32⟩
  | .hbm, ⟨66, _⟩ => ⟨S4194304, .f32⟩
  | .hbm, ⟨67, _⟩ => ⟨S4194304, .f32⟩
  | .hbm, ⟨68, _⟩ => ⟨S_, .f32⟩
  | .hbm, ⟨69, _⟩ => ⟨S4194304, .f32⟩
  | .hbm, ⟨70, _⟩ => ⟨S4194304, .f32⟩
  | .hbm, ⟨71, _⟩ => ⟨S_, .f32⟩
  | .hbm, ⟨72, _⟩ => ⟨S4194304, .f32⟩
  | .hbm, ⟨73, _⟩ => ⟨S4194304, .f32⟩
  | .hbm, ⟨74, _⟩ => ⟨S4194304, .f32⟩
  | .hbm, ⟨75, _⟩ => ⟨S_, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S_, .f32⟩
  | .hbm, ⟨82, _⟩ => ⟨S4194304, .f32⟩
  | .hbm, ⟨83, _⟩ => ⟨S4194304, .f32⟩
  | .hbm, ⟨84, _⟩ => ⟨S4194304, .f32⟩
  | .hbm, ⟨85, _⟩ => ⟨S_, .f32⟩
  | .hbm, ⟨86, _⟩ => ⟨S4194304, .f32⟩
  | .hbm, ⟨87, _⟩ => ⟨S4194304, .f32⟩
  | .hbm, ⟨88, _⟩ => ⟨S4194304, .f32⟩
  | .hbm, ⟨89, _⟩ => ⟨S4194304, .f32⟩
  | .hbm, ⟨90, _⟩ => ⟨S_, .f32⟩
  | .hbm, ⟨91, _⟩ => ⟨S4194304, .f32⟩
  | .hbm, ⟨92, _⟩ => ⟨S4194304, .f32⟩
  | .hbm, ⟨93, _⟩ => ⟨S4194304, .f32⟩
  | .hbm, ⟨94, _⟩ => ⟨S_, .f32⟩
  | .hbm, ⟨95, _⟩ => ⟨S4194304, .f32⟩
  | .hbm, ⟨96, _⟩ => ⟨S4194304, .f32⟩
  | .hbm, ⟨97, _⟩ => ⟨S4194304, .f32⟩
  | .hbm, ⟨98, _⟩ => ⟨S4194304, .f32⟩
  | .hbm, ⟨99, _⟩ => ⟨S4194304x1, .f32⟩
  | .hbm, ⟨100, _⟩ => ⟨S4194304x1, .f32⟩
  | .hbm, ⟨101, _⟩ => ⟨S4194304x1, .f32⟩
  | .hbm, ⟨102, _⟩ => ⟨S4194304x1, .f32⟩
  | .hbm, ⟨103, _⟩ => ⟨S4194304x1, .f32⟩
  | .hbm, ⟨104, _⟩ => ⟨S4194304x1, .f32⟩
  | .hbm, ⟨105, _⟩ => ⟨S4194304x1, .f32⟩
  | .hbm, ⟨106, _⟩ => ⟨S4194304x1, .f32⟩
  | .hbm, ⟨107, _⟩ => ⟨S4194304x1, .f32⟩
  | .hbm, ⟨108, _⟩ => ⟨S4194304x1, .f32⟩
  | .hbm, ⟨109, _⟩ => ⟨S4194304x1, .f32⟩
  | .hbm, ⟨110, _⟩ => ⟨S4194304x1, .f32⟩
  | .hbm, ⟨111, _⟩ => ⟨S4194304x1, .f32⟩
  | .hbm, ⟨112, _⟩ => ⟨S4194304x1, .f32⟩
  | .hbm, ⟨113, _⟩ => ⟨S4194304x1, .f32⟩
  | .hbm, ⟨114, _⟩ => ⟨S4194304x1, .f32⟩
  | .hbm, ⟨115, _⟩ => ⟨S4194304x16, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_8 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_cst_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_12 : Ref sig .tc := ⟨.hbm, 55, rfl⟩
abbrev main_v41 : Ref sig .tc := ⟨.hbm, 56, rfl⟩
abbrev main_v42 : Ref sig .tc := ⟨.hbm, 57, rfl⟩
abbrev main_cst_13 : Ref sig .tc := ⟨.hbm, 58, rfl⟩
abbrev main_v43 : Ref sig .tc := ⟨.hbm, 59, rfl⟩
abbrev main_v44 : Ref sig .tc := ⟨.hbm, 60, rfl⟩
abbrev main_cst_14 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_15 : Ref sig .tc := ⟨.hbm, 65, rfl⟩
abbrev main_v48 : Ref sig .tc := ⟨.hbm, 66, rfl⟩
abbrev main_v49 : Ref sig .tc := ⟨.hbm, 67, rfl⟩
abbrev main_cst_16 : Ref sig .tc := ⟨.hbm, 68, rfl⟩
abbrev main_v50 : Ref sig .tc := ⟨.hbm, 69, rfl⟩
abbrev main_v51 : Ref sig .tc := ⟨.hbm, 70, rfl⟩
abbrev main_cst_17 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_18 : Ref sig .tc := ⟨.hbm, 75, rfl⟩
abbrev main_v55 : Ref sig .tc := ⟨.hbm, 76, rfl⟩
abbrev main_v56 : Ref sig .tc := ⟨.hbm, 77, rfl⟩
abbrev main_cst_19 : Ref sig .tc := ⟨.hbm, 78, rfl⟩
abbrev main_v57 : Ref sig .tc := ⟨.hbm, 79, rfl⟩
abbrev main_v58 : Ref sig .tc := ⟨.hbm, 80, rfl⟩
abbrev main_cst_20 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_21 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_22 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_23 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]

class Facts₀ : Prop where
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x1_S4194304x1_S4194304x1_S4194304x1_S4194304x1_S4194304x1_S4194304x1_S4194304x1_S4194304x1_S4194304x1_S4194304x1_S4194304x1_S4194304x1_S4194304x16_d1 : Shape.Concatenates [S4194304x1, S4194304x1, S4194304x1, S4194304x1, S4194304x1, S4194304x1, S4194304x1, S4194304x1, S4194304x1, S4194304x1, S4194304x1, S4194304x1, S4194304x1, S4194304x1, S4194304x1, S4194304x1] S4194304x16 1

variable [Facts₀]

class Facts : Prop extends Facts₀ where

variable [Facts]
-- ==== Proof.Spec.lean ====
/-
  The sixteen real spherical harmonics of degree at most three of a direction (x, y, z), as polynomials over the
  extended reals with the single-precision coefficients both programs print, and the encoding of an array of directions:
  row n of the result is the sixteen polynomials of row n of the argument.  Every coefficient is kept as the word
  the programs print; none is evaluated.
-/
import Idealize.ShloMosaic.PureOps.Ideal
import Idealize.ShloMosaic.PureOps.Ideal.Laws
import Idealize.ShloMosaic.Lib.ValueIdx

noncomputable section

namespace Cert.Harmonics

open Idealize.ShloMosaic Idealize.ShloMosaic.ValueIdx

/-- The sixteen basis polynomials at (x, y, z), in the order l = 0, 1, 2, 3, products grouped as the programs group
    them: Y₀ is a constant; the three of degree one are multiples of y, z, x; the five of degree two multiples of
    xy, yz, z² (less a constant), xz, x² − y²; the seven of degree three products of a multiple of a coordinate
    with a quadratic form. -/
def basis (x y z : EReal) : Fin 16 → EReal :=
  ![Ideal.ofBits .f32 0x3E906EBB#32,
    Ideal.ofBits .f32 0xBEFA2A1C#32 * y,
    Ideal.ofBits .f32 0x3EFA2A1C#32 * z,
    Ideal.ofBits .f32 0xBEFA2A1C#32 * x,
    Ideal.ofBits .f32 0x3F8BD8A1#32 * (x * y),
    Ideal.ofBits .f32 0xBF8BD8A1#32 * (y * z),
    Ideal.ofBits .f32 0x3F723881#32 * (z * z) - Ideal.ofBits .f32 0x3EA17B01#32,
    Ideal.ofBits .f32 0xBF8BD8A1#32 * (x * z),
    Ideal.ofBits .f32 0x3F0BD8A1#32 * (x * x - y * y),
    Ideal.ofBits .f32 0x3F170D19#32 * y * (Ideal.ofBits .f32 0xC0400000#32 * (x * x) + y * y),
    Ideal.ofBits .f32 0x4038FFC7#32 * (x * y) * z,
    Ideal.ofBits .f32 0x3EEA01E8#32 * y * (Ideal.ofBits .f32 0x3F800000#32 - Ideal.ofBits .f32 0x40A00000#32 * (z * z)),
    Ideal.ofBits .f32 0x3EBF10F8#32 * z * (Ideal.ofBits .f32 0x40A00000#32 * (z * z) - Ideal.ofBits .f32 0x40400000#32),
    Ideal.ofBits .f32 0x3EEA01E8#32 * x * (Ideal.ofBits .f32 0x3F800000#32 - Ideal.ofBits .f32 0x40A00000#32 * (z * z)),
    Ideal.ofBits .f32 0x3FB8FFC7#32 * z * (x * x - y * y),
    Ideal.ofBits .f32 0x3F170D19#32 * x * (-(x * x) + Ideal.ofBits .f32 0x40400000#32 * (y * y))]

/-- The encoding of N directions, one per row: entry (n, r) is the r-th basis polynomial of row n. -/
def encode {N : Nat} (d : (⟨2, ![N, 3]⟩ : Shape).Idx → EReal) : (⟨2, ![N, 16]⟩ : Shape).Idx → EReal :=
  fun j => basis (d (ix2 (j 0 : Fin N) (0 : Fin 3))) (d (ix2 (j 0 : Fin N) (1 : Fin 3))) (d (ix2 (j 0 : Fin N) (2 : Fin 3))) (j 1 : Fin 16)

theorem encode_apply {N : Nat} (d : (⟨2, ![N, 3]⟩ : Shape).Idx → EReal) (n : Fin N) (r : Fin 16) :
    encode d (ix2 n r) = basis (d (ix2 n 0)) (d (ix2 n 1)) (d (ix2 n 2)) r := rfl

/-- The same with the two axes exchanged, the layout the kernel computes in: the directions are the columns of a
    three-row array and the polynomials the rows of a sixteen-row one. -/
def encodeT {N : Nat} (a : (⟨2, ![3, N]⟩ : Shape).Idx → EReal) : (⟨2, ![16, N]⟩ : Shape).Idx → EReal :=
  fun j => basis (a (ix2 (0 : Fin 3) (j 1 : Fin N))) (a (ix2 (1 : Fin 3) (j 1 : Fin N))) (a (ix2 (2 : Fin 3) (j 1 : Fin N))) (j 0 : Fin 16)

theorem encodeT_apply {N : Nat} (a : (⟨2, ![3, N]⟩ : Shape).Idx → EReal) (r : Fin 16) (q : Fin N) :
    encodeT a (ix2 r q) = basis (a (ix2 0 q)) (a (ix2 1 q)) (a (ix2 2 q)) r := rfl

/-- Zero less a number is its negative, on every extended real: how one program spells the negated square the other
    negates. -/
theorem zero_word_sub (a : EReal) : Ideal.ofBits .f32 0x00000000#32 - a = -a := by
  rw [Ideal.ofBits_zero_f32, zero_sub]

end Cert.Harmonics

end
-- ==== Proof.RefValue.lean ====
/-
  The reference reads the three columns of the argument, forms the sixteen basis polynomials of each row as
  sixteen vectors, and lays them side by side as the sixteen columns of the result.  So entry (n, r) of the result is
  the r-th basis polynomial of row n of the argument: the reference computes `Harmonics.encode`.
-/
import proofs.«140209_j1047972021050_1_alg».proof.Proof.Gen.ReferenceIdeal.Read
import proofs.«140209_j1047972021050_1_alg».proof.Proof.Spec
import Idealize.ShloMosaic.Lib.Pipeline.Value
import Idealize.ShloMosaic.Lib.ValueIdx
import Mathlib.Tactic.FinCases

noncomputable section

namespace Cert.ReferenceIdeal.Columns

open Cert.ReferenceIdeal Cert.ReferenceIdeal.Gen Cert.ReferenceIdeal.Read Cert.Harmonics
open Idealize.ShloMosaic Idealize.ShloMosaic.TcCoe Idealize.ShloMosaic.ValueIdx

/-! ## The three coordinate vectors -/

/-- Column 0 of the argument, as a vector, at n is the argument at (n, 0). -/
theorem col0 (x0 : (⟨S4194304x3, .f32⟩ : BufTy).Contents (Elt Ideal)) (n : Fin 4194304) :
    val_main_v1 (F := Ideal) x0 (ix1 n) = x0 (ix2 n 0) := by
  rw [val_main_v1_apply, val_main_v0_apply]
  exact congrArg x0 (funext fun a => Fin.ext (by
    match a with
    | ⟨0, _⟩ => exact Nat.div_one _
    | ⟨1, _⟩ => rfl))

/-- Column 1 at n is the argument at (n, 1). -/
theorem col1 (x0 : (⟨S4194304x3, .f32⟩ : BufTy).Contents (Elt Ideal)) (n : Fin 4194304) :
    val_main_v3 (F := Ideal) x0 (ix1 n) = x0 (ix2 n 1) := by
  rw [val_main_v3_apply, val_main_v2_apply]
  exact congrArg x0 (funext fun a => Fin.ext (by
    match a with
    | ⟨0, _⟩ => exact Nat.div_one _
    | ⟨1, _⟩ => rfl))

/-- Column 2 at n is the argument at (n, 2). -/
theorem col2 (x0 : (⟨S4194304x3, .f32⟩ : BufTy).Contents (Elt Ideal)) (n : Fin 4194304) :
    val_main_v5 (F := Ideal) x0 (ix1 n) = x0 (ix2 n 2) := by
  rw [val_main_v5_apply, val_main_v4_apply]
  exact congrArg x0 (funext fun a => Fin.ext (by
    match a with
    | ⟨0, _⟩ => exact Nat.div_one _
    | ⟨1, _⟩ => rfl))

/-! ## Each of the sixteen result columns -/

/-- Every elementwise operation and every splatted constant read at an index, down to the three coordinate vectors,
    and the exact arithmetic each denotes on the extended reals. -/
local macro "read_elementwise" : tactic => `(tactic| simp only [val_main_v6_apply, val_main_v7_apply, val_main_v8_apply, val_main_v9_apply, val_main_v10_apply, val_main_v11_apply, val_main_cst_apply, val_main_v12_apply, val_main_cst_0_apply, val_main_v13_apply, val_main_v14_apply, val_main_cst_1_apply, val_main_v15_apply, val_main_v16_apply, val_main_cst_2_apply, val_main_v17_apply, val_main_v18_apply, val_main_cst_3_apply, val_main_v19_apply, val_main_v20_apply, val_main_cst_4_apply, val_main_v21_apply, val_main_v22_apply, val_main_cst_5_apply, val_main_v23_apply, val_main_v24_apply, val_main_cst_6_apply, val_main_v25_apply, val_main_v26_apply, val_main_cst_7_apply, val_main_v27_apply, val_main_v28_apply, val_main_v29_apply, val_main_cst_8_apply, val_main_v30_apply, val_main_v31_apply, val_main_cst_9_apply, val_main_v32_apply, val_main_v33_apply, val_main_cst_10_apply, val_main_v34_apply, val_main_v35_apply, val_main_v36_apply, val_main_v37_apply, val_main_cst_11_apply, val_main_v38_apply, val_main_v39_apply, val_main_v40_apply, val_main_cst_12_apply, val_main_v41_apply, val_main_v42_apply, val_main_cst_13_apply, val_main_v43_apply, val_main_v44_apply, val_main_cst_14_apply, val_main_v45_apply, val_main_v46_apply, val_main_v47_apply, val_main_cst_15_apply, val_main_v48_apply, val_main_v49_apply, val_main_cst_16_apply, val_main_v50_apply, val_main_v51_apply, val_main_cst_17_apply, val_main_v52_apply, val_main_v53_apply, val_main_v54_apply, val_main_cst_18_apply, val_main_v55_apply, val_main_v56_apply, val_main_cst_19_apply, val_main_v57_apply, val_main_v58_apply, val_main_cst_20_apply, val_main_v59_apply, val_main_v60_apply, val_main_v61_apply, val_main_cst_21_apply, val_main_v62_apply, val_main_v63_apply, val_main_v64_apply, val_main_v65_apply, val_main_cst_22_apply, val_main_v66_apply, val_main_v67_apply, val_main_v68_apply, val_main_cst_23_apply, val_main_v69_apply, val_main_v70_apply, val_main_v71_apply, val_main_v72_apply,
  col0, col1, col2, Ideal.mulf_def, Ideal.addf_def, Ideal.subf_def, Ideal.negf_def, Ideal.hostNegf_def, Ideal.ofBits_def])

/-- Result column 0 (a constant) at row n. -/
theorem column0 (x0 : (⟨S4194304x3, .f32⟩ : BufTy).Contents (Elt Ideal)) (n : Fin 4194304) (u : Fin 1) :
    val_main_v73 (F := Ideal) (ix2 n u) = basis (x0 (ix2 n 0)) (x0 (ix2 n 1)) (x0 (ix2 n 2)) 0 := by
  rw [val_main_v73_apply, show idx_main_v73 (ix2 n u) = ix1 n from funext fun a => match a with | ⟨0, _⟩ => rfl]
  read_elementwise
  rfl

/-- Result column 1 (a multiple of y) at row n. -/
theorem column1 (x0 : (⟨S4194304x3, .f32⟩ : BufTy).Contents (Elt Ideal)) (n : Fin 4194304) (u : Fin 1) :
    val_main_v74 (F := Ideal) x0 (ix2 n u) = basis (x0 (ix2 n 0)) (x0 (ix2 n 1)) (x0 (ix2 n 2)) 1 := by
  rw [val_main_v74_apply, show idx_main_v74 (ix2 n u) = ix1 n from funext fun a => match a with | ⟨0, _⟩ => rfl]
  read_elementwise
  rfl

/-- Result column 2 (a multiple of z) at row n. -/
theorem column2 (x0 : (⟨S4194304x3, .f32⟩ : BufTy).Contents (Elt Ideal)) (n : Fin 4194304) (u : Fin 1) :
    val_main_v75 (F := Ideal) x0 (ix2 n u) = basis (x0 (ix2 n 0)) (x0 (ix2 n 1)) (x0 (ix2 n 2)) 2 := by
  rw [val_main_v75_apply, show idx_main_v75 (ix2 n u) = ix1 n from funext fun a => match a with | ⟨0, _⟩ => rfl]
  read_elementwise
  rfl

/-- Result column 3 (a multiple of x) at row n. -/
theorem column3 (x0 : (⟨S4194304x3, .f32⟩ : BufTy).Contents (Elt Ideal)) (n : Fin 4194304) (u : Fin 1) :
    val_main_v76 (F := Ideal) x0 (ix2 n u) = basis (x0 (ix2 n 0)) (x0 (ix2 n 1)) (x0 (ix2 n 2)) 3 := by
  rw [val_main_v76_apply, show idx_main_v76 (ix2 n u) = ix1 n from funext fun a => match a with | ⟨0, _⟩ => rfl]
  read_elementwise
  rfl

/-- Result column 4 (a multiple of xy) at row n. -/
theorem column4 (x0 : (⟨S4194304x3, .f32⟩ : BufTy).Contents (Elt Ideal)) (n : Fin 4194304) (u : Fin 1) :
    val_main_v77 (F := Ideal) x0 (ix2 n u) = basis (x0 (ix2 n 0)) (x0 (ix2 n 1)) (x0 (ix2 n 2)) 4 := by
  rw [val_main_v77_apply, show idx_main_v77 (ix2 n u) = ix1 n from funext fun a => match a with | ⟨0, _⟩ => rfl]
  read_elementwise
  rfl

/-- Result column 5 (a multiple of yz) at row n. -/
theorem column5 (x0 : (⟨S4194304x3, .f32⟩ : BufTy).Contents (Elt Ideal)) (n : Fin 4194304) (u : Fin 1) :
    val_main_v78 (F := Ideal) x0 (ix2 n u) = basis (x0 (ix2 n 0)) (x0 (ix2 n 1)) (x0 (ix2 n 2)) 5 := by
  rw [val_main_v78_apply, show idx_main_v78 (ix2 n u) = ix1 n from funext fun a => match a with | ⟨0, _⟩ => rfl]
  read_elementwise
  rfl

/-- Result column 6 (a multiple of z² less a constant) at row n. -/
theorem column6 (x0 : (⟨S4194304x3, .f32⟩ : BufTy).Contents (Elt Ideal)) (n : Fin 4194304) (u : Fin 1) :
    val_main_v79 (F := Ideal) x0 (ix2 n u) = basis (x0 (ix2 n 0)) (x0 (ix2 n 1)) (x0 (ix2 n 2)) 6 := by
  rw [val_main_v79_apply, show idx_main_v79 (ix2 n u) = ix1 n from funext fun a => match a with | ⟨0, _⟩ => rfl]
  read_elementwise
  rfl

/-- Result column 7 (a multiple of xz) at row n. -/
theorem column7 (x0 : (⟨S4194304x3, .f32⟩ : BufTy).Contents (Elt Ideal)) (n : Fin 4194304) (u : Fin 1) :
    val_main_v80 (F := Ideal) x0 (ix2 n u) = basis (x0 (ix2 n 0)) (x0 (ix2 n 1)) (x0 (ix2 n 2)) 7 := by
  rw [val_main_v80_apply, show idx_main_v80 (ix2 n u) = ix1 n from funext fun a => match a with | ⟨0, _⟩ => rfl]
  read_elementwise
  rfl

/-- Result column 8 (a multiple of x² − y²) at row n. -/
theorem column8 (x0 : (⟨S4194304x3, .f32⟩ : BufTy).Contents (Elt Ideal)) (n : Fin 4194304) (u : Fin 1) :
    val_main_v81 (F := Ideal) x0 (ix2 n u) = basis (x0 (ix2 n 0)) (x0 (ix2 n 1)) (x0 (ix2 n 2)) 8 := by
  rw [val_main_v81_apply, show idx_main_v81 (ix2 n u) = ix1 n from funext fun a => match a with | ⟨0, _⟩ => rfl]
  read_elementwise
  rfl

/-- Result column 9 (a multiple of y times −3x² + y²) at row n. -/
theorem column9 (x0 : (⟨S4194304x3, .f32⟩ : BufTy).Contents (Elt Ideal)) (n : Fin 4194304) (u : Fin 1) :
    val_main_v82 (F := Ideal) x0 (ix2 n u) = basis (x0 (ix2 n 0)) (x0 (ix2 n 1)) (x0 (ix2 n 2)) 9 := by
  rw [val_main_v82_apply, show idx_main_v82 (ix2 n u) = ix1 n from funext fun a => match a with | ⟨0, _⟩ => rfl]
  read_elementwise
  rfl

/-- Result column 10 (a multiple of xy times z) at row n. -/
theorem column10 (x0 : (⟨S4194304x3, .f32⟩ : BufTy).Contents (Elt Ideal)) (n : Fin 4194304) (u : Fin 1) :
    val_main_v83 (F := Ideal) x0 (ix2 n u) = basis (x0 (ix2 n 0)) (x0 (ix2 n 1)) (x0 (ix2 n 2)) 10 := by
  rw [val_main_v83_apply, show idx_main_v83 (ix2 n u) = ix1 n from funext fun a => match a with | ⟨0, _⟩ => rfl]
  read_elementwise
  rfl

/-- Result column 11 (a multiple of y times 1 − 5z²) at row n. -/
theorem column11 (x0 : (⟨S4194304x3, .f32⟩ : BufTy).Contents (Elt Ideal)) (n : Fin 4194304) (u : Fin 1) :
    val_main_v84 (F := Ideal) x0 (ix2 n u) = basis (x0 (ix2 n 0)) (x0 (ix2 n 1)) (x0 (ix2 n 2)) 11 := by
  rw [val_main_v84_apply, show idx_main_v84 (ix2 n u) = ix1 n from funext fun a => match a with | ⟨0, _⟩ => rfl]
  read_elementwise
  rfl

/-- Result column 12 (a multiple of z times 5z² − 3) at row n. -/
theorem column12 (x0 : (⟨S4194304x3, .f32⟩ : BufTy).Contents (Elt Ideal)) (n : Fin 4194304) (u : Fin 1) :
    val_main_v85 (F := Ideal) x0 (ix2 n u) = basis (x0 (ix2 n 0)) (x0 (ix2 n 1)) (x0 (ix2 n 2)) 12 := by
  rw [val_main_v85_apply, show idx_main_v85 (ix2 n u) = ix1 n from funext fun a => match a with | ⟨0, _⟩ => rfl]
  read_elementwise
  rfl

/-- Result column 13 (a multiple of x times 1 − 5z²) at row n. -/
theorem column13 (x0 : (⟨S4194304x3, .f32⟩ : BufTy).Contents (Elt Ideal)) (n : Fin 4194304) (u : Fin 1) :
    val_main_v86 (F := Ideal) x0 (ix2 n u) = basis (x0 (ix2 n 0)) (x0 (ix2 n 1)) (x0 (ix2 n 2)) 13 := by
  rw [val_main_v86_apply, show idx_main_v86 (ix2 n u) = ix1 n from funext fun a => match a with | ⟨0, _⟩ => rfl]
  read_elementwise
  rfl

/-- Result column 14 (a multiple of z times x² − y²) at row n. -/
theorem column14 (x0 : (⟨S4194304x3, .f32⟩ : BufTy).Contents (Elt Ideal)) (n : Fin 4194304) (u : Fin 1) :
    val_main_v87 (F := Ideal) x0 (ix2 n u) = basis (x0 (ix2 n 0)) (x0 (ix2 n 1)) (x0 (ix2 n 2)) 14 := by
  rw [val_main_v87_apply, show idx_main_v87 (ix2 n u) = ix1 n from funext fun a => match a with | ⟨0, _⟩ => rfl]
  read_elementwise
  rfl

/-- Result column 15 (a multiple of x times −x² + 3y²) at row n. -/
theorem column15 (x0 : (⟨S4194304x3, .f32⟩ : BufTy).Contents (Elt Ideal)) (n : Fin 4194304) (u : Fin 1) :
    val_main_v88 (F := Ideal) x0 (ix2 n u) = basis (x0 (ix2 n 0)) (x0 (ix2 n 1)) (x0 (ix2 n 2)) 15 := by
  rw [val_main_v88_apply, show idx_main_v88 (ix2 n u) = ix1 n from funext fun a => match a with | ⟨0, _⟩ => rfl]
  read_elementwise
  rfl

/-! ## The columns side by side -/

/-- The sixteen columns, in order. -/
def columns (x0 : (⟨S4194304x3, .f32⟩ : BufTy).Contents (Elt Ideal)) : Fin 16 → (S4194304x1.Idx → Elt Ideal .f32) :=
  ![val_main_v73 (F := Ideal),
    val_main_v74 (F := Ideal) x0,
    val_main_v75 (F := Ideal) x0,
    val_main_v76 (F := Ideal) x0,
    val_main_v77 (F := Ideal) x0,
    val_main_v78 (F := Ideal) x0,
    val_main_v79 (F := Ideal) x0,
    val_main_v80 (F := Ideal) x0,
    val_main_v81 (F := Ideal) x0,
    val_main_v82 (F := Ideal) x0,
    val_main_v83 (F := Ideal) x0,
    val_main_v84 (F := Ideal) x0,
    val_main_v85 (F := Ideal) x0,
    val_main_v86 (F := Ideal) x0,
    val_main_v87 (F := Ideal) x0,
    val_main_v88 (F := Ideal) x0]

/-- THE REFERENCE'S RESULT is the encoding of its argument: at (n, r) the concatenation along the column axis reads
    column r at row n. -/
theorem result_eq (x0 : (⟨S4194304x3, .f32⟩ : BufTy).Contents (Elt Ideal)) :
    val_main_v89 (F := Ideal) x0 = encode x0 := by
  funext j
  obtain ⟨n, r, rfl⟩ : ∃ (n : Fin 4194304) (r : Fin 16), j = ix2 n r := ⟨j 0, j 1, eq_ix2 j⟩
  rw [encode_apply]
  unfold val_main_v89
  refine (concatenate_ofFn_unit_apply (t := S4194304x16) (s₁ := S4194304x1) 1 (columns x0) _ rfl rfl (ix2 n r) r rfl
    (ix2 n 0) (fun b hb => match b, hb with
      | ⟨0, _⟩, _ => rfl
      | ⟨1, _⟩, hb => absurd rfl hb)).trans ?_
  fin_cases r
  · exact column0 x0 n 0
  · exact column1 x0 n 0
  · exact column2 x0 n 0
  · exact column3 x0 n 0
  · exact column4 x0 n 0
  · exact column5 x0 n 0
  · exact column6 x0 n 0
  · exact column7 x0 n 0
  · exact column8 x0 n 0
  · exact column9 x0 n 0
  · exact column10 x0 n 0
  · exact column11 x0 n 0
  · exact column12 x0 n 0
  · exact column13 x0 n 0
  · exact column14 x0 n 0
  · exact column15 x0 n 0

end Cert.ReferenceIdeal.Columns

end
-- ==== Proof.KernelValue.lean ====
/-
  The kernel works on the transposed layout: a host transposition makes the directions the columns of a [3, N] array,
  the region cuts it into 64 blocks of 65536 columns, the body stores into row r of the [16, 65536] output block the r-th
  basis polynomial of the block's three rows, lane by lane, and a second host transposition turns the [16, N] array
  the region filled into the [N, 16] result.  So the result is `Harmonics.encode` of the argument.
-/
import proofs.«140209_j1047972021050_1_alg».proof.Proof.Gen.KernelIdeal.Frame
import proofs.«140209_j1047972021050_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Rows

open Cert.KernelIdeal Cert.KernelIdeal.Gen Cert.Harmonics
open Idealize.ShloMosaic Idealize.ShloMosaic.TcCoe Idealize.ShloMosaic.ValueIdx Idealize.SL.Sem
open Idealize.ShloMosaic.Pipeline (Dat)

/-! ## The body: one block -/

/-- A load of row 0 of the input block reads, at lane q, the block at (0, q). -/
theorem ld_row0 (x0 : Vec Ideal S3x65536 .f32) (u : Fin 1) (q : Fin 65536) :
    View.ld x0 r0_0 (ix2 u q) = x0 (ix2 0 q) := by
  show x0 (r0_0.emb (ix2 u q)) = _
  refine congrArg x0 (funext fun a => Fin.ext ?_)
  match a with
  | ⟨0, _⟩ => show 0 + 1 * u.val = 0; omega
  | ⟨1, _⟩ => show 0 + 1 * q.val = q.val; omega

/-- A load of row 1 of the input block reads, at lane q, the block at (1, q). -/
theorem ld_row1 (x0 : Vec Ideal S3x65536 .f32) (u : Fin 1) (q : Fin 65536) :
    View.ld x0 r0_1 (ix2 u q) = x0 (ix2 1 q) := by
  show x0 (r0_1.emb (ix2 u q)) = _
  refine congrArg x0 (funext fun a => Fin.ext ?_)
  match a with
  | ⟨0, _⟩ => show 1 + 1 * u.val = 1; omega
  | ⟨1, _⟩ => show 0 + 1 * q.val = q.val; omega

/-- A load of row 2 of the input block reads, at lane q, the block at (2, q). -/
theorem ld_row2 (x0 : Vec Ideal S3x65536 .f32) (u : Fin 1) (q : Fin 65536) :
    View.ld x0 r0_2 (ix2 u q) = x0 (ix2 2 q) := by
  show x0 (r0_2.emb (ix2 u q)) = _
  refine congrArg x0 (funext fun a => Fin.ext ?_)
  match a with
  | ⟨0, _⟩ => show 2 + 1 * u.val = 2; omega
  | ⟨1, _⟩ => show 0 + 1 * q.val = q.val; omega

/-- What the body stores into row 0 of the output block: a constant, lane by lane. -/
theorem stored0 (x0 : Vec Ideal S3x65536 .f32) (u : Fin 1) (q : Fin 65536) :
    (k0_pay12 (F := Ideal)) (ix2 u q) = basis (x0 (ix2 0 q)) (x0 (ix2 1 q)) (x0 (ix2 2 q)) 0 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rfl

/-- What the body stores into row 1 of the output block: a multiple of y, lane by lane. -/
theorem stored1 (x0 : Vec Ideal S3x65536 .f32) (u : Fin 1) (q : Fin 65536) :
    (k0_pay13 (View.ld x0 r0_1)) (ix2 u q) = basis (x0 (ix2 0 q)) (x0 (ix2 1 q)) (x0 (ix2 2 q)) 1 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row1 x0 0 q]
  rfl

/-- What the body stores into row 2 of the output block: a multiple of z, lane by lane. -/
theorem stored2 (x0 : Vec Ideal S3x65536 .f32) (u : Fin 1) (q : Fin 65536) :
    (k0_pay14 (View.ld x0 r0_2)) (ix2 u q) = basis (x0 (ix2 0 q)) (x0 (ix2 1 q)) (x0 (ix2 2 q)) 2 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row2 x0 0 q]
  rfl

/-- What the body stores into row 3 of the output block: a multiple of x, lane by lane. -/
theorem stored3 (x0 : Vec Ideal S3x65536 .f32) (u : Fin 1) (q : Fin 65536) :
    (k0_pay15 (View.ld x0 r0_0)) (ix2 u q) = basis (x0 (ix2 0 q)) (x0 (ix2 1 q)) (x0 (ix2 2 q)) 3 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q]
  rfl

/-- What the body stores into row 4 of the output block: a multiple of xy, lane by lane. -/
theorem stored4 (x0 : Vec Ideal S3x65536 .f32) (u : Fin 1) (q : Fin 65536) :
    (k0_pay17 (k0_pay16 (View.ld x0 r0_0) (View.ld x0 r0_1))) (ix2 u q) = basis (x0 (ix2 0 q)) (x0 (ix2 1 q)) (x0 (ix2 2 q)) 4 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q, ld_row1 x0 0 q]
  rfl

/-- What the body stores into row 5 of the output block: a multiple of yz, lane by lane. -/
theorem stored5 (x0 : Vec Ideal S3x65536 .f32) (u : Fin 1) (q : Fin 65536) :
    (k0_pay18 (k0_pay10 (View.ld x0 r0_1) (View.ld x0 r0_2))) (ix2 u q) = basis (x0 (ix2 0 q)) (x0 (ix2 1 q)) (x0 (ix2 2 q)) 5 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row1 x0 0 q, ld_row2 x0 0 q]
  rfl

/-- What the body stores into row 6 of the output block: a multiple of z² less a constant, lane by lane. -/
theorem stored6 (x0 : Vec Ideal S3x65536 .f32) (u : Fin 1) (q : Fin 65536) :
    (k0_pay19 (k0_pay8 (View.ld x0 r0_2))) (ix2 u q) = basis (x0 (ix2 0 q)) (x0 (ix2 1 q)) (x0 (ix2 2 q)) 6 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row2 x0 0 q]
  rfl

/-- What the body stores into row 7 of the output block: a multiple of xz, lane by lane. -/
theorem stored7 (x0 : Vec Ideal S3x65536 .f32) (u : Fin 1) (q : Fin 65536) :
    (k0_pay20 (k0_pay11 (View.ld x0 r0_0) (View.ld x0 r0_2))) (ix2 u q) = basis (x0 (ix2 0 q)) (x0 (ix2 1 q)) (x0 (ix2 2 q)) 7 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q, ld_row2 x0 0 q]
  rfl

/-- What the body stores into row 8 of the output block: a multiple of x² − y², lane by lane. -/
theorem stored8 (x0 : Vec Ideal S3x65536 .f32) (u : Fin 1) (q : Fin 65536) :
    (k0_pay21 (k0_pay6 (View.ld x0 r0_0)) (k0_pay7 (View.ld x0 r0_1))) (ix2 u q) = basis (x0 (ix2 0 q)) (x0 (ix2 1 q)) (x0 (ix2 2 q)) 8 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q, ld_row1 x0 0 q]
  rfl

/-- What the body stores into row 9 of the output block: a multiple of y times −3x² + y², lane by lane. -/
theorem stored9 (x0 : Vec Ideal S3x65536 .f32) (u : Fin 1) (q : Fin 65536) :
    (k0_pay22 (k0_pay4 (View.ld x0 r0_1)) (k0_pay6 (View.ld x0 r0_0)) (k0_pay7 (View.ld x0 r0_1))) (ix2 u q) = basis (x0 (ix2 0 q)) (x0 (ix2 1 q)) (x0 (ix2 2 q)) 9 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q, ld_row1 x0 0 q]
  rfl

/-- What the body stores into row 10 of the output block: a multiple of xy times z, lane by lane. -/
theorem stored10 (x0 : Vec Ideal S3x65536 .f32) (u : Fin 1) (q : Fin 65536) :
    (k0_pay24 (k0_pay5 (View.ld x0 r0_2)) (k0_pay23 (k0_pay9 (View.ld x0 r0_0) (View.ld x0 r0_1)))) (ix2 u q) = basis (x0 (ix2 0 q)) (x0 (ix2 1 q)) (x0 (ix2 2 q)) 10 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q, ld_row1 x0 0 q, ld_row2 x0 0 q]
  rfl

/-- What the body stores into row 11 of the output block: a multiple of y times 1 − 5z², lane by lane. -/
theorem stored11 (x0 : Vec Ideal S3x65536 .f32) (u : Fin 1) (q : Fin 65536) :
    (k0_pay25 (k0_pay4 (View.ld x0 r0_1)) (k0_pay8 (View.ld x0 r0_2))) (ix2 u q) = basis (x0 (ix2 0 q)) (x0 (ix2 1 q)) (x0 (ix2 2 q)) 11 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row1 x0 0 q, ld_row2 x0 0 q]
  rfl

/-- What the body stores into row 12 of the output block: a multiple of z times 5z² − 3, lane by lane. -/
theorem stored12 (x0 : Vec Ideal S3x65536 .f32) (u : Fin 1) (q : Fin 65536) :
    (k0_pay26 (k0_pay5 (View.ld x0 r0_2)) (k0_pay8 (View.ld x0 r0_2))) (ix2 u q) = basis (x0 (ix2 0 q)) (x0 (ix2 1 q)) (x0 (ix2 2 q)) 12 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row2 x0 0 q]
  rfl

/-- What the body stores into row 13 of the output block: a multiple of x times 1 − 5z², lane by lane. -/
theorem stored13 (x0 : Vec Ideal S3x65536 .f32) (u : Fin 1) (q : Fin 65536) :
    (k0_pay27 (k0_pay3 (View.ld x0 r0_0)) (k0_pay8 (View.ld x0 r0_2))) (ix2 u q) = basis (x0 (ix2 0 q)) (x0 (ix2 1 q)) (x0 (ix2 2 q)) 13 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q, ld_row2 x0 0 q]
  rfl

/-- What the body stores into row 14 of the output block: a multiple of z times x² − y², lane by lane. -/
theorem stored14 (x0 : Vec Ideal S3x65536 .f32) (u : Fin 1) (q : Fin 65536) :
    (k0_pay1 (k0_pay28 (k0_pay5 (View.ld x0 r0_2)) (k0_pay6 (View.ld x0 r0_0)) (k0_pay7 (View.ld x0 r0_1)))) (ix2 u q) = basis (x0 (ix2 0 q)) (x0 (ix2 1 q)) (x0 (ix2 2 q)) 14 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q, ld_row1 x0 0 q, ld_row2 x0 0 q]
  rfl

/-- What the body stores into row 15 of the output block: a multiple of x times −x² + 3y², lane by lane. -/
theorem stored15 (x0 : Vec Ideal S3x65536 .f32) (u : Fin 1) (q : Fin 65536) :
    (k0_pay2 (k0_pay3 (View.ld x0 r0_0)) (k0_pay6 (View.ld x0 r0_0)) (k0_pay7 (View.ld x0 r0_1))) (ix2 u q) = basis (x0 (ix2 0 q)) (x0 (ix2 1 q)) (x0 (ix2 2 q)) 15 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_a_1a_apply, shapeCast_1a_a_apply, ValueIdx.mulf_apply, ValueIdx.addf_apply,
    ValueIdx.subf_apply, ValueIdx.broadcast_apply]
  rw [ld_row0 x0 0 q, ld_row1 x0 0 q]
  simp only [Ideal.ofBits_def, zero_word_sub]
  rfl

/-- THE OUTPUT BLOCK the body leaves is the transposed encoding of its input block: each of the sixteen stores
    writes one row, and the rows tile the block. -/
theorem block_eq (x0 : Vec Ideal S3x65536 .f32) : out0_1 x0 = encodeT x0 := by
  funext y
  unfold out0_1
  refine View.canon_apply_of_pieces (Val := Elt Ideal) (S := S16x65536) (e := .f32) (encodeT x0) _ ?_ y (cover0_1 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · intro x
    obtain ⟨u, q, rfl⟩ : ∃ (u : Fin 1) (q : Fin 65536), x = ix2 u q := ⟨x 0, x 1, eq_ix2 x⟩
    rw [show r0_18.emb (ix2 u q) = ix2 (15 : Fin 16) q from funext fun a => Fin.ext (by
      match a with
      | ⟨0, _⟩ => show 15 + 1 * u.val = 15; omega
      | ⟨1, _⟩ => show 0 + 1 * q.val = q.val; omega)]
    exact stored15 x0 u q
  · intro x
    obtain ⟨u, q, rfl⟩ : ∃ (u : Fin 1) (q : Fin 65536), x = ix2 u q := ⟨x 0, x 1, eq_ix2 x⟩
    rw [show r0_17.emb (ix2 u q) = ix2 (14 : Fin 16) q from funext fun a => Fin.ext (by
      match a with
      | ⟨0, _⟩ => show 14 + 1 * u.val = 14; omega
      | ⟨1, _⟩ => show 0 + 1 * q.val = q.val; omega)]
    exact stored14 x0 u q
  · intro x
    obtain ⟨u, q, rfl⟩ : ∃ (u : Fin 1) (q : Fin 65536), x = ix2 u q := ⟨x 0, x 1, eq_ix2 x⟩
    rw [show r0_16.emb (ix2 u q) = ix2 (13 : Fin 16) q from funext fun a => Fin.ext (by
      match a with
      | ⟨0, _⟩ => show 13 + 1 * u.val = 13; omega
      | ⟨1, _⟩ => show 0 + 1 * q.val = q.val; omega)]
    exact stored13 x0 u q
  · intro x
    obtain ⟨u, q, rfl⟩ : ∃ (u : Fin 1) (q : Fin 65536), x = ix2 u q := ⟨x 0, x 1, eq_ix2 x⟩
    rw [show r0_15.emb (ix2 u q) = ix2 (12 : Fin 16) q from funext fun a => Fin.ext (by
      match a with
      | ⟨0, _⟩ => show 12 + 1 * u.val = 12; omega
      | ⟨1, _⟩ => show 0 + 1 * q.val = q.val; omega)]
    exact stored12 x0 u q
  · intro x
    obtain ⟨u, q, rfl⟩ : ∃ (u : Fin 1) (q : Fin 65536), x = ix2 u q := ⟨x 0, x 1, eq_ix2 x⟩
    rw [show r0_14.emb (ix2 u q) = ix2 (11 : Fin 16) q from funext fun a => Fin.ext (by
      match a with
      | ⟨0, _⟩ => show 11 + 1 * u.val = 11; omega
      | ⟨1, _⟩ => show 0 + 1 * q.val = q.val; omega)]
    exact stored11 x0 u q
  · intro x
    obtain ⟨u, q, rfl⟩ : ∃ (u : Fin 1) (q : Fin 65536), x = ix2 u q := ⟨x 0, x 1, eq_ix2 x⟩
    rw [show r0_13.emb (ix2 u q) = ix2 (10 : Fin 16) q from funext fun a => Fin.ext (by
      match a with
      | ⟨0, _⟩ => show 10 + 1 * u.val = 10; omega
      | ⟨1, _⟩ => show 0 + 1 * q.val = q.val; omega)]
    exact stored10 x0 u q
  · intro x
    obtain ⟨u, q, rfl⟩ : ∃ (u : Fin 1) (q : Fin 65536), x = ix2 u q := ⟨x 0, x 1, eq_ix2 x⟩
    rw [show r0_12.emb (ix2 u q) = ix2 (9 : Fin 16) q from funext fun a => Fin.ext (by
      match a with
      | ⟨0, _⟩ => show 9 + 1 * u.val = 9; omega
      | ⟨1, _⟩ => show 0 + 1 * q.val = q.val; omega)]
    exact stored9 x0 u q
  · intro x
    obtain ⟨u, q, rfl⟩ : ∃ (u : Fin 1) (q : Fin 65536), x = ix2 u q := ⟨x 0, x 1, eq_ix2 x⟩
    rw [show r0_11.emb (ix2 u q) = ix2 (8 : Fin 16) q from funext fun a => Fin.ext (by
      match a with
      | ⟨0, _⟩ => show 8 + 1 * u.val = 8; omega
      | ⟨1, _⟩ => show 0 + 1 * q.val = q.val; omega)]
    exact stored8 x0 u q
  · intro x
    obtain ⟨u, q, rfl⟩ : ∃ (u : Fin 1) (q : Fin 65536), x = ix2 u q := ⟨x 0, x 1, eq_ix2 x⟩
    rw [show r0_10.emb (ix2 u q) = ix2 (7 : Fin 16) q from funext fun a => Fin.ext (by
      match a with
      | ⟨0, _⟩ => show 7 + 1 * u.val = 7; omega
      | ⟨1, _⟩ => show 0 + 1 * q.val = q.val; omega)]
    exact stored7 x0 u q
  · intro x
    obtain ⟨u, q, rfl⟩ : ∃ (u : Fin 1) (q : Fin 65536), x = ix2 u q := ⟨x 0, x 1, eq_ix2 x⟩
    rw [show r0_9.emb (ix2 u q) = ix2 (6 : Fin 16) q from funext fun a => Fin.ext (by
      match a with
      | ⟨0, _⟩ => show 6 + 1 * u.val = 6; omega
      | ⟨1, _⟩ => show 0 + 1 * q.val = q.val; omega)]
    exact stored6 x0 u q
  · intro x
    obtain ⟨u, q, rfl⟩ : ∃ (u : Fin 1) (q : Fin 65536), x = ix2 u q := ⟨x 0, x 1, eq_ix2 x⟩
    rw [show r0_8.emb (ix2 u q) = ix2 (5 : Fin 16) q from funext fun a => Fin.ext (by
      match a with
      | ⟨0, _⟩ => show 5 + 1 * u.val = 5; omega
      | ⟨1, _⟩ => show 0 + 1 * q.val = q.val; omega)]
    exact stored5 x0 u q
  · intro x
    obtain ⟨u, q, rfl⟩ : ∃ (u : Fin 1) (q : Fin 65536), x = ix2 u q := ⟨x 0, x 1, eq_ix2 x⟩
    rw [show r0_7.emb (ix2 u q) = ix2 (4 : Fin 16) q from funext fun a => Fin.ext (by
      match a with
      | ⟨0, _⟩ => show 4 + 1 * u.val = 4; omega
      | ⟨1, _⟩ => show 0 + 1 * q.val = q.val; omega)]
    exact stored4 x0 u q
  · intro x
    obtain ⟨u, q, rfl⟩ : ∃ (u : Fin 1) (q : Fin 65536), x = ix2 u q := ⟨x 0, x 1, eq_ix2 x⟩
    rw [show r0_6.emb (ix2 u q) = ix2 (3 : Fin 16) q from funext fun a => Fin.ext (by
      match a with
      | ⟨0, _⟩ => show 3 + 1 * u.val = 3; omega
      | ⟨1, _⟩ => show 0 + 1 * q.val = q.val; omega)]
    exact stored3 x0 u q
  · intro x
    obtain ⟨u, q, rfl⟩ : ∃ (u : Fin 1) (q : Fin 65536), x = ix2 u q := ⟨x 0, x 1, eq_ix2 x⟩
    rw [show r0_5.emb (ix2 u q) = ix2 (2 : Fin 16) q from funext fun a => Fin.ext (by
      match a with
      | ⟨0, _⟩ => show 2 + 1 * u.val = 2; omega
      | ⟨1, _⟩ => show 0 + 1 * q.val = q.val; omega)]
    exact stored2 x0 u q
  · intro x
    obtain ⟨u, q, rfl⟩ : ∃ (u : Fin 1) (q : Fin 65536), x = ix2 u q := ⟨x 0, x 1, eq_ix2 x⟩
    rw [show r0_4.emb (ix2 u q) = ix2 (1 : Fin 16) q from funext fun a => Fin.ext (by
      match a with
      | ⟨0, _⟩ => show 1 + 1 * u.val = 1; omega
      | ⟨1, _⟩ => show 0 + 1 * q.val = q.val; omega)]
    exact stored1 x0 u q
  · intro x
    obtain ⟨u, q, rfl⟩ : ∃ (u : Fin 1) (q : Fin 65536), x = ix2 u q := ⟨x 0, x 1, eq_ix2 x⟩
    rw [show r0_3.emb (ix2 u q) = ix2 (0 : Fin 16) q from funext fun a => Fin.ext (by
      match a with
      | ⟨0, _⟩ => show 0 + 1 * u.val = 0; omega
      | ⟨1, _⟩ => show 0 + 1 * q.val = q.val; omega)]
    exact stored0 x0 u q

/-! ## The region: the blocks side by side -/

variable (m : (ℓ : Loc nD τ sig) → Buf (Elt Ideal) ℓ) (ρ : Dev nD → PrngReg)

/-- Both windows stay on block row 0 and move along the columns with the grid point. -/
theorem idx_facts : ∀ t : Fin cfg0.N, win0_0.index t (0 : Fin 2) = 0 ∧ win0_1.index t (0 : Fin 2) = 0
    ∧ win0_0.index t (1 : Fin 2) = t.val ∧ win0_1.index t (1 : Fin 2) = t.val :=
  (by decide +kernel : ∀ t : Fin grid0.N, _)

/-- WHAT POINT t WRITES BACK is block t of the transposed encoding of the region's input array. -/
theorem flushed_eq (c : Dev nD) (t : Fin cfg0.N) :
    (dats m 0 c).flushed 1 t = ((cfg0.win 1).blk t).view.read (Elt Ideal) (encodeT (V m c main_v0)) := by
  show (cfg0.win 1).cut (grid0.coords t) ((dats m 0 c).after 1 t) = _
  rw [after0_1, block_eq]
  obtain ⟨e0, e1, e2, e3⟩ := idx_facts t
  funext y
  have hr : (((cfg0.win 1).blk t).view.emb y) 0 = (y 0 : Fin 16) := Fin.ext (by
    show win0_1.index t (0 : Fin 2) * 16 + 1 * (y 0).val = (y 0).val; omega)
  have hk : ∀ k : Fin 3, iblk m c 0 t (ix2 k (y 1 : Fin 65536))
      = V m c main_v0 (ix2 k ((((cfg0.win 1).blk t).view.emb y) 1 : Fin 4194304)) := fun k => by
    show V m c main_v0 (((cfg0.win 0).blk t).view.emb (ix2 k (y 1 : Fin 65536))) = _
    refine congrArg (V m c main_v0) (funext fun a => Fin.ext ?_)
    match a with
    | ⟨0, _⟩ => show win0_0.index t (0 : Fin 2) * 3 + 1 * k.val = k.val; omega
    | ⟨1, _⟩ => show win0_0.index t (1 : Fin 2) * 65536 + 1 * (y 1).val = win0_1.index t (1 : Fin 2) * 65536 + 1 * (y 1).val; omega
  show basis (iblk m c 0 t (ix2 0 (y 1 : Fin 65536))) (iblk m c 0 t (ix2 1 (y 1 : Fin 65536))) (iblk m c 0 t (ix2 2 (y 1 : Fin 65536))) (y 0 : Fin 16)
    = basis (V m c main_v0 (ix2 0 ((((cfg0.win 1).blk t).view.emb y) 1 : Fin 4194304)))
        (V m c main_v0 (ix2 1 ((((cfg0.win 1).blk t).view.emb y) 1 : Fin 4194304)))
        (V m c main_v0 (ix2 2 ((((cfg0.win 1).blk t).view.emb y) 1 : Fin 4194304))) ((((cfg0.win 1).blk t).view.emb y) 0 : Fin 16)
  rw [hk 0, hk 1, hk 2, hr]

/-- An index of the [16, N] array lies in point t's block iff each coordinate lies in the block's range. -/
theorem mem_blk (t : Fin cfg0.N) (i : S16x4194304.Idx) :
    i ∈ ((cfg0.win 1).blk t).view.set ↔ ∀ a : Fin 2, win0_1.index t a * S16x65536.size a ≤ (i a).val
      ∧ (i a).val < win0_1.index t a * S16x65536.size a + S16x65536.size a := by
  show i ∈ ((View.whole main_v1).slice (win0_1.rect t)).set ↔ _
  rw [View.set_slice_whole, Rect.mem_set_unit]
  exact Iff.rfl

/-- Every column lies in the block of the point its number over 65536 names: the 64 blocks tile the array. -/
theorem covered (i : S16x4194304.Idx) :
    ∃ t : Fin cfg0.N, (cfg0.win 1).flush t = true ∧ i ∈ ((cfg0.win 1).blk t).view.set := by
  have h0 : (i 0).val < 16 := (i 0).isLt
  have h1 : (i 1).val < 4194304 := (i 1).isLt
  have hN : cfg0.N = 64 := N_0
  let t : Fin cfg0.N := ⟨(i 1).val / 65536, by rw [hN]; omega⟩
  obtain ⟨e0, e1, e2, e3⟩ := idx_facts t
  have e3' : win0_1.index t (1 : Fin 2) = (i 1).val / 65536 := e3
  refine ⟨t, flush0_1 t, ?_⟩
  rw [mem_blk]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 65536 ≤ (i 1).val ∧ (i 1).val < win0_1.index t (1 : Fin 2) * 65536 + 65536; omega

/-- THE [16, N] ARRAY after the region is the transposed encoding of the region's input array. -/
theorem filled (c : Dev nD) : (dats m 0 c).arrAt 1 cfg0.N = encodeT (V m c main_v0) :=
  (dats m 0 c).arrAt_eq_of_cover 1 (encodeT (V m c main_v0)) (fun t _ => flushed_eq m c t) covered

/-! ## The host lines around the region -/

/-- The region's input array is the argument transposed. -/
theorem input_eq (c : Dev nD) :
    (V m c main_v0 : S3x4194304.Idx → EReal)
      = transpose S3x4194304 [1, 0] (m ((c : Thread nD τ).loc main_arg0)) transposes_S4194304x3_S3x4194304_1_0 := by
  show StableHlo.after hostOps0 (fun b => m (c, b)) (Proc.devRef .tc main_v0) = _
  after_results

/-- The result is the region's [16, N] array transposed. -/
theorem output_eq (c : Dev nD) :
    (Pipeline.afterTail₀ cfgs (dats m) 0 (V0 m) [hostOps1] c main_v2 : S4194304x16.Idx → EReal)
      = transpose S4194304x16 [1, 0] ((dats m 0 c).arrAt 1 cfg0.N) transposes_S16x4194304_S4194304x16_1_0 := by
  unfold Pipeline.afterTail₀
  show StableHlo.after hostOps1 _ (Proc.devRef .tc main_v2) = _
  after_results
  exact congrArg (fun v => transpose S4194304x16 [1, 0] v transposes_S16x4194304_S4194304x16_1_0)
    (Pipeline.withArrays_arr spec0 launch0.win.arr_inj c _ _ 1)

/-- THE KERNEL'S RESULT is the encoding of its argument: transposing, encoding column by column and transposing back
    is encoding row by row. -/
theorem result_eq (c : Dev nD) :
    (Pipeline.afterTail₀ cfgs (dats m) 0 (V0 m) [hostOps1] c main_v2 : S4194304x16.Idx → EReal)
      = encode (m ((c : Thread nD τ).loc main_arg0)) := by
  rw [output_eq, filled, input_eq]
  funext j
  obtain ⟨n, r, rfl⟩ : ∃ (n : Fin 4194304) (r : Fin 16), j = ix2 n r := ⟨j 0, j 1, eq_ix2 j⟩
  rw [transpose_ix2_apply, encodeT_apply, encode_apply, transpose_ix2_apply, transpose_ix2_apply, transpose_ix2_apply]

/-- The kernel's run: every weakly fair execution terminates with the result at the encoding of the argument and the
    argument unchanged. -/
theorem run : θ_run defs (onTc (τ := τ) (main (F := Ideal))) ⟨m, fun _ => 0, ρ⟩ fun r => ∀ c : Dev nD,
      r.2.mem ((c.tc : Thread nD τ).loc main_v2) = encode (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Rows

end
-- ==== Proof.lean ====
/-
  The kernel and the reference both compute the spherical-harmonics encoding of degree at most three of an array of
  directions: entry (n, r) of the result is the r-th basis polynomial (`Harmonics.basis`) of the three coordinates in
  row n of the argument, with the same single-precision coefficients on both sides.

  The reference slices the three columns, forms the sixteen polynomials as vectors and concatenates them as columns
  (`ReferenceIdeal.Columns.result_eq`).  The kernel transposes the argument, fills a [16, N] array block by block —
  row r of a block is polynomial r of the block's three rows — and transposes back (`KernelIdeal.Rows.result_eq`).
  The two texts spell every polynomial alike but one: the reference negates x² where the kernel subtracts it from
  zero, the same number on every extended real.  No law used needs the inputs finite, so the precondition is never
  opened; nothing was rewritten by the idealization, so its side claim is trivial.
-/
import proofs.«140209_j1047972021050_1_alg».proof.Defs
import proofs.«140209_j1047972021050_1_alg».proof.Proof.Gen.Kernel
import proofs.«140209_j1047972021050_1_alg».proof.Proof.Gen.Kernel.Skeleton
import proofs.«140209_j1047972021050_1_alg».proof.Proof.Gen.Kernel.Launch
import proofs.«140209_j1047972021050_1_alg».proof.Proof.Gen.Kernel.Points
import proofs.«140209_j1047972021050_1_alg».proof.Proof.Gen.Kernel.Frame
import proofs.«140209_j1047972021050_1_alg».proof.Proof.Gen.KernelIdeal
import proofs.«140209_j1047972021050_1_alg».proof.Proof.Gen.KernelIdeal.Skeleton
import proofs.«140209_j1047972021050_1_alg».proof.Proof.Gen.KernelIdeal.Launch
import proofs.«140209_j1047972021050_1_alg».proof.Proof.Gen.KernelIdeal.Points
import proofs.«140209_j1047972021050_1_alg».proof.Proof.Gen.KernelIdeal.Frame
import proofs.«140209_j1047972021050_1_alg».proof.Proof.Gen.ReferenceIdeal
import proofs.«140209_j1047972021050_1_alg».proof.Proof.Gen.ReferenceIdeal.Run
import proofs.«140209_j1047972021050_1_alg».proof.Proof.Gen.ReferenceIdeal.Read
import proofs.«140209_j1047972021050_1_alg».proof.Proof.Gen.Pre_finite_inputs
import proofs.«140209_j1047972021050_1_alg».proof.Proof.Spec
import proofs.«140209_j1047972021050_1_alg».proof.Proof.RefValue
import proofs.«140209_j1047972021050_1_alg».proof.Proof.KernelValue
import Idealize.ShloMosaic.Adequacy
import Idealize.ShloMosaic.Init

noncomputable section

namespace Cert.Proof

open Idealize.ShloMosaic Idealize.SL.Sem Cert.Harmonics

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's run, its result dropped
    exact fun m ρ _ => (θ_run Cert.ReferenceIdeal.defs _ _).mono (fun _ h c => (h c).2)
      (Cert.ReferenceIdeal.Value.run (F := Ideal) m ρ)
  · -- both runs end at the encoding of the one argument
    intro m ρ m' ρ' _ hagree
    refine ⟨fun c => encode (m ((c.tc : Thread Cert.KernelIdeal.nD Cert.KernelIdeal.τ).loc Cert.KernelIdeal.main_arg0)),
      Cert.KernelIdeal.Rows.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v89_eq, Cert.ReferenceIdeal.Columns.result_eq, hagree c]⟩

end Cert.Proof

end
